-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_

variable [Facts]

def fn {F : FTy → Type} [FloatOps F] (main_arg0 : FVec F S4x8192x768 .f32) (main_arg1 : FVec F S8192x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S4x8192x768 : Shape := ⟨3, ![4, 8192, 768]⟩
abbrev S8192x768 : Shape := ⟨2, ![8192, 768]⟩
abbrev S32768x768 : Shape := ⟨2, ![32768, 768]⟩
abbrev S512x768 : Shape := ⟨2, ![512, 768]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S32768x768, .f32⟩
  | .hbm, ⟨3, _⟩ => ⟨S32768x768, .f32⟩
  | .hbm, ⟨4, _⟩ => ⟨S4x8192x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x8192x768_S32768x768 : S4x8192x768.ShapeCasts S32768x768
  inb_S512x768_S512x768_0_0 : ∀ a, (![0, 0] : Fin 2 → Nat) a + S512x768.size a ≤ S512x768.size a
  h_S512x768 : 0 < S512x768.numel
  reduces_S512x768_S512 : S512x768.Reduces [1] S512
  shapeCasts_S512_S512x1 : S512.ShapeCasts S512x1
  shapeCasts_S512x768_S512x768 : S512x768.ShapeCasts S512x768
  broadcasts_S512x1_S512x768 : S512x1.Broadcasts S512x768
  shapeCasts_S32768x768_S4x8192x768 : S32768x768.ShapeCasts S4x8192x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .f32 = 32 ∨ (Rect.block (s := S8192x768) S512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S32768x768.size a
  hwx0_2 : ∀ i : grid0.Coords, EltTy.bits .f32 = 32 ∨ (Rect.block (s := S32768x768) S512x768.size (cc0_transform_2 i) (hinb0_2 i)).WholeWords (EltTy.packing .f32)

variable [Facts₀]

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x768, .f32⟩
  | .hbm, ⟨22, _⟩ => ⟨S8192x768, .i1⟩
  | .hbm, ⟨23, _⟩ => ⟨S_, .f32⟩
  | .hbm, ⟨24, _⟩ => ⟨S8192x768, .f32⟩
  | .hbm, ⟨25, _⟩ => ⟨S8192x768, .f32⟩
  | .hbm, ⟨26, _⟩ => ⟨S8192x768, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x768, .f32⟩
  | .hbm, ⟨41, _⟩ => ⟨S8192x768, .f32⟩
  | .hbm, ⟨42, _⟩ => ⟨S1x8192x768, .f32⟩
  | .hbm, ⟨43, _⟩ => ⟨S4x8192x768, .f32⟩
  | .hbm, ⟨44, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v2 : Ref sig .tc := ⟨.hbm, 30, rfl⟩
abbrev main_cst : Ref sig .tc := ⟨.hbm, 31, rfl⟩
abbrev main_v3 : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x768_0 : S8192.BroadcastsInDim S8192x768 (![0] : Fin 1 → Fin S8192x768.rank)
  bcast_S_S8192x768 : S_.BroadcastsInDim S8192x768 (![] : Fin 0 → Fin S8192x768.rank)
  reducesTo_S8192x768_S8192_d1 : S8192x768.ReducesTo [1] S8192
  bcast_S8192x1_S8192x768_0_1 : S8192x1.BroadcastsInDim S8192x768 (![0, 1] : Fin 2 → Fin S8192x768.rank)
  bcast_S8192x768_S1x8192x768_1_2 : S8192x768.BroadcastsInDim S1x8192x768 (![1, 2] : Fin 2 → Fin S1x8192x768.rank)
  bcast_S1x8192x768_S4x8192x768_0_1_2 : S1x8192x768.BroadcastsInDim S4x8192x768 (![0, 1, 2] : Fin 3 → Fin S4x8192x768.rank)
  gather_S8192x768_S8192x1_S8192x768_1_0_n_n_0_1_1768_wf : GatherDims.WF S8192x768 S8192x1 S8192x768 [1] [0] [] [0] [] 1 ![1, 768]

variable [Facts₀]

def gather_S8192x768_S8192x1_S8192x768_1_0_n_n_0_1_1768 : GatherDims S8192x768 S8192x1 S8192x768 where
  offsetDims := [1]
  collapsedSliceDims := [0]
  operandBatchingDims := []
  startIndicesBatchingDims := []
  startIndexMap := [0]
  indexVectorDim := 1
  sliceSizes := ![1, 768]
  wf := gather_S8192x768_S8192x1_S8192x768_1_0_n_n_0_1_1768_wf

class Facts : Prop extends Facts₀ where

variable [Facts]
-- ==== Proof.ClipSpec.lean ====
/-
  The common value of both programs, stated once over the extended reals and over literal shapes; no program is
  imported here.

  For a table `w` of 8192 rows of 768 entries, row `l` has squared Euclidean length `rowSq w l = Σ_k w(l,k)²`.
  Its rescaling factor is `clipScale w l = min 1 (c / max (√(rowSq w l)) ε)`, with `c`, `ε` and `1` the three
  f32 words both programs print (`c` is the f32 nearest to √768, `ε` the f32 nearest to 1e-12): a row longer than `c`
  is shrunk to length `c`, a shorter one is kept. The result adds the rescaled row `l` of the table to row `l` of
  every one of the four batches of `x`:
      clipAdd x w (b, l, j) = x (b, l, j) + w (l, j) · clipScale w l.
-/
import Idealize.ShloMosaic.PureOps.Ideal
import Idealize.ShloMosaic.Lib.ValueIdx

noncomputable section

namespace Cert.ClipSpec

open Idealize.ShloMosaic Idealize.ShloMosaic.ValueIdx

/-- The activations' shape, [batch 4, position 8192, feature 768]. -/
abbrev SX : Shape := ⟨3, ![4, 8192, 768]⟩
/-- The table's shape, [position 8192, feature 768]. -/
abbrev SW : Shape := ⟨2, ![8192, 768]⟩

/-- The f32 word both programs print for the norm bound (27.7128124, the f32 nearest √768), read at the extended reals. -/
abbrev cBound : EReal := Ideal.ofBits .f32 0x41DDB3D7#32
/-- The f32 word both programs print for the floor under the norm (9.99999996E-13). -/
abbrev epsFloor : EReal := Ideal.ofBits .f32 0x2B8CBCCC#32
/-- The f32 word for one. -/
abbrev oneW : EReal := Ideal.ofBits .f32 0x3F800000#32

/-- The squared length of row `l`: the sum of the squares of its 768 entries. -/
def rowSq (w : SW.Idx → EReal) (l : Fin 8192) : EReal := ∑ k : Fin 768, w (ix2 l k) * w (ix2 l k)

/-- The factor row `l` is multiplied by: one, or the bound over the row's length when that is smaller. -/
def clipScale (w : SW.Idx → EReal) (l : Fin 8192) : EReal :=
  min oneW (Ideal.div cBound (max (Ideal.sqrt (rowSq w l)) epsFloor))

/-- The result: each batch's row `l` plus the table's rescaled row `l`. -/
def clipAdd (x : SX.Idx → EReal) (w : SW.Idx → EReal) : SX.Idx → EReal :=
  fun i => x i + w (ix2 (i 1) (i 2)) * clipScale w (i 1)

/-- The same function read on the activations flattened to [4·8192, 768] rows (row `r` is batch `r / 8192`,
    position `r % 8192`): the form one launch of the kernel produces before the last reshape. -/
def clipAddFlat (x2 : (⟨2, ![32768, 768]⟩ : Shape).Idx → EReal) (w : SW.Idx → EReal) :
    (⟨2, ![32768, 768]⟩ : Shape).Idx → EReal :=
  fun i => x2 i + w (ix2 ⟨(i 0).val % 8192, Nat.mod_lt _ (by norm_num)⟩ (i 1)) * clipScale w ⟨(i 0).val % 8192, Nat.mod_lt _ (by norm_num)⟩

end Cert.ClipSpec

end
-- ==== Proof.RefStages.lean ====
/-
  The reference program's value as named stages, each written in the operations the program applies, in order:
  the positions 0 … 8191; the positions with a negative one counted from the end; those as a column of start
  indices; whether each lies inside the table; the table's rows taken at those positions (a row outside the table
  would read as the not-a-number word); the column of the rows' Euclidean lengths; the column of rescaling factors
  `min 1 (c / max length ε)`; and the result, the activations plus the rescaled rows laid under every batch.
-/
import proofs.«167354_g4449586119098_cont_8to1_c_163_3_alg».proof.Proof.Gen.ReferenceIdeal

noncomputable section

namespace Cert.ReferenceIdeal.RefStages

open Cert.ReferenceIdeal Idealize.ShloMosaic Idealize.SL.Sem
open Cert.ReferenceIdeal.Facts₀

variable {F : FTy → Type} [FloatOps F]

/-- The positions 0 … 8191. -/
def pos : IVec S8192 32 := iotaInDim S8192 32 0

/-- A negative position counts from the table's end. -/
def posWrapped : IVec S8192 32 :=
  select (cmpi .slt pos (broadcastInDim S8192 ![] bcast_S_S8192 (constantI S_ 32 0#32)))
    (addi pos (broadcastInDim S8192 ![] bcast_S_S8192 (constantI S_ 32 8192#32))) pos

/-- The positions as a column of start indices. -/
def posCol : IVec S8192x1 32 := broadcastInDim S8192x1 ![0] bcast_S8192_S8192x1_0 posWrapped

/-- Whether each position lies in 0 … 8191. -/
def inRange : IVec S8192 1 :=
  Host.reduce IntOp.andi
    (andi (cmpi .sge posCol (broadcastInDim S8192x1 ![] bcast_S_S8192x1 (constantI S_ 32 0#32)))
      (cmpi .sle posCol (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The table's rows at the positions; a position outside the table reads as the not-a-number word. -/
def rows (w : FVec F S8192x768 .f32) : FVec F S8192x768 .f32 :=
  select (broadcastInDim S8192x768 ![0] bcast_S8192_S8192x768_0 inRange)
    (Host.gather gather_S8192x768_S8192x1_S8192x768_1_0_n_n_0_1_1768 w posCol)
    (broadcastInDim S8192x768 ![] bcast_S_S8192x768 (constant S_ .f32 0x7FC00000#32))

/-- The column of the rows' Euclidean lengths. -/
def normCol (w : FVec F S8192x768 .f32) : FVec F S8192x1 .f32 :=
  Host.sqrt (broadcastInDim S8192x1 ![0] bcast_S8192_S8192x1_0
    (Host.reduceAdd (mulf (rows w) (rows w)) (constant S_ .f32 0x00000000#32) reducesTo_S8192x768_S8192_d1 h_S_))

/-- The column of rescaling factors. -/
def scaleCol (w : FVec F S8192x768 .f32) : FVec F S8192x1 .f32 :=
  minimumf (broadcastInDim S8192x1 ![] bcast_S_S8192x1 (constant S_ .f32 0x3F800000#32))
    (Host.divf (broadcastInDim S8192x1 ![] bcast_S_S8192x1 (constant S_ .f32 0x41DDB3D7#32))
      (maximumf (normCol w) (broadcastInDim S8192x1 ![] bcast_S_S8192x1 (constant S_ .f32 0x2B8CBCCC#32))))

/-- The rescaled rows. -/
def scaledRows (w : FVec F S8192x768 .f32) : FVec F S8192x768 .f32 :=
  mulf (rows w) (broadcastInDim S8192x768 ![0, 1] bcast_S8192x1_S8192x768_0_1 (scaleCol w))

/-- The result: the activations plus the rescaled rows under every batch. -/
def refOut (x : FVec F S4x8192x768 .f32) (w : FVec F S8192x768 .f32) : FVec F S4x8192x768 .f32 :=
  addf x (broadcastInDim S4x8192x768 ![0, 1, 2] bcast_S1x8192x768_S4x8192x768_0_1_2
    (broadcastInDim S1x8192x768 ![1, 2] bcast_S8192x768_S1x8192x768_1_2 (scaledRows w)))

end Cert.ReferenceIdeal.RefStages

end
-- ==== Proof.RefRun.lean ====
/-
  The reference program's run, read back as a value.

  The program has no kernel: @main is one straight line of tensor operations once its three outlined functions
  (the row lookup, the select it calls, and the row length) are written out at their call sites. The line is
  listed below as `ops`, @main is shown equal to running that list in order, and the library's statement for
  such a line gives, on every device and from any launch memory, termination with every buffer at the fold of
  the operations' results over the launch contents. Folding at the result buffer gives the composed term of the
  two arguments, which is the staged definition `RefStages.refOut`; folding at an argument gives the argument
  back, since no operation writes it.
-/
import proofs.«167354_g4449586119098_cont_8to1_c_163_3_alg».proof.Proof.RefStages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- @main's operations in order, each call written out over that call's own buffers: the positions; then the
    row lookup (a negative position counted from the end — the zero, its broadcast, the comparison, the table
    length, its broadcast, the sum, the select —, the positions as a column, the range test of that column
    against 0 and 8191 reduced along the unit axis, the gather of the rows, the test broadcast along the
    features, the not-a-number fill, the select); then the row length (the squares, the zero, their sum along
    the features, that as a column, the square root); then @main's own: the floor, the larger of length and
    floor, the bound over it, the smaller of one and that quotient, the factor broadcast along the features,
    the rescaled rows, a unit batch axis, the four batches, and the sum with the activations. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x768_S8192x1_S8192x768_1_0_n_n_0_1_1768 x i),
    TRef.unary main_call0.v12 main_call0.v14 (broadcastInDim S8192x768 ![0] bcast_S8192_S8192x768_0),
    TRef.nullary main_call0.cst (constant S_ .f32 0x7FC00000#32),
    TRef.unary main_call0.cst main_call0.v15 (broadcastInDim S8192x768 ![] bcast_S_S8192x768),
    TRef.ternary main_call0.v14 main_call0.v13 main_call0.v15 main_call0.v16 select,
    TRef.binary (.of main_v1) (.of main_v1) main_call1.v0 mulf,
    TRef.nullary main_call1.cst (constant S_ .f32 0x00000000#32),
    TRef.binary main_call1.v0 main_call1.cst main_call1.v1 (fun x v => Host.reduceAdd x v reducesTo_S8192x768_S8192_d1 h_S_),
    TRef.unary main_call1.v1 main_call1.v2 (broadcastInDim S8192x1 ![0] bcast_S8192_S8192x1_0),
    TRef.unary main_call1.v2 main_call1.v3 Host.sqrt,
    nullary main_cst (constant S_ .f32 0x2B8CBCCC#32),
    unary main_cst main_v3 (broadcastInDim S8192x1 ![] bcast_S_S8192x1 : (⟨S_, .f32⟩ : BufTy).Contents (Elt F) → (⟨S8192x1, .f32⟩ : BufTy).Contents (Elt F)),
    binary main_v2 main_v3 main_v4 (maximumf : (⟨S8192x1, .f32⟩ : BufTy).Contents (Elt F) → (⟨S8192x1, .f32⟩ : BufTy).Contents (Elt F) → (⟨S8192x1, .f32⟩ : BufTy).Contents (Elt F)),
    nullary main_cst_0 (constant S_ .f32 0x41DDB3D7#32),
    unary main_cst_0 main_v5 (broadcastInDim S8192x1 ![] bcast_S_S8192x1 : (⟨S_, .f32⟩ : BufTy).Contents (Elt F) → (⟨S8192x1, .f32⟩ : BufTy).Contents (Elt F)),
    binary main_v5 main_v4 main_v6 (Host.divf : (⟨S8192x1, .f32⟩ : BufTy).Contents (Elt F) → (⟨S8192x1, .f32⟩ : BufTy).Contents (Elt F) → (⟨S8192x1, .f32⟩ : BufTy).Contents (Elt F)),
    nullary main_cst_1 (constant S_ .f32 0x3F800000#32),
    unary main_cst_1 main_v7 (broadcastInDim S8192x1 ![] bcast_S_S8192x1 : (⟨S_, .f32⟩ : BufTy).Contents (Elt F) → (⟨S8192x1, .f32⟩ : BufTy).Contents (Elt F)),
    binary main_v7 main_v6 main_v8 (minimumf : (⟨S8192x1, .f32⟩ : BufTy).Contents (Elt F) → (⟨S8192x1, .f32⟩ : BufTy).Contents (Elt F) → (⟨S8192x1, .f32⟩ : BufTy).Contents (Elt F)),
    unary main_v8 main_v9 (broadcastInDim S8192x768 ![0, 1] bcast_S8192x1_S8192x768_0_1 : (⟨S8192x1, .f32⟩ : BufTy).Contents (Elt F) → (⟨S8192x768, .f32⟩ : BufTy).Contents (Elt F)),
    binary main_v1 main_v9 main_v10 (mulf : (⟨S8192x768, .f32⟩ : BufTy).Contents (Elt F) → (⟨S8192x768, .f32⟩ : BufTy).Contents (Elt F) → (⟨S8192x768, .f32⟩ : BufTy).Contents (Elt F)),
    unary main_v10 main_v11 (broadcastInDim S1x8192x768 ![1, 2] bcast_S8192x768_S1x8192x768_1_2 : (⟨S8192x768, .f32⟩ : BufTy).Contents (Elt F) → (⟨S1x8192x768, .f32⟩ : BufTy).Contents (Elt F)),
    unary main_v11 main_v12 (broadcastInDim S4x8192x768 ![0, 1, 2] bcast_S1x8192x768_S4x8192x768_0_1_2 : (⟨S1x8192x768, .f32⟩ : BufTy).Contents (Elt F) → (⟨S4x8192x768, .f32⟩ : BufTy).Contents (Elt F)),
    binary main_arg0 main_v12 main_v13 (addf : (⟨S4x8192x768, .f32⟩ : BufTy).Contents (Elt F) → (⟨S4x8192x768, .f32⟩ : BufTy).Contents (Elt F) → (⟨S4x8192x768, .f32⟩ : BufTy).Contents (Elt F)) ]

-- forty-three sequenced steps re-associated: the rewrite under the chain recurses once per step
set_option maxRecDepth 2048 in
/-- @main is that straight line: with the three functions' bodies written out at their calls and sequencing
    re-associated, both sides are the same chain of steps. -/
theorem main_eq (c : Dev nD) : main (F := F) c = StableHlo.seq ops := by
  simp only [main, fn_take.body, fn_where.body, fn_norm.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own references only. -/
theorem ops_sub : (ops : List (HloOp τ sig (Elt F))).Forall fun op => op.bufs ⊆ tcRefs τ sig :=
  ⟨nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub ..⟩

attribute [local irreducible] Host.reduce Host.reduceAdd Host.gather in
set_option maxRecDepth 8192 in
set_option maxHeartbeats 400000 in
/-- The fold at the result buffer is the staged term of the two arguments. Unrolling the fold, each operation
    either writes the buffer being read, and then the buffer holds the operation's function of its operands'
    contents, or leaves it; reading back from the last sum to the first operation composes exactly the stages
    `refOut` names, the typed references' transports being identities at these literal buffers. The two
    reductions and the gather stay folded throughout: the equation never looks inside them. -/
theorem out_eq (V : Valuation τ sig (Elt F)) :
    StableHlo.after ops V (main_v13 : DevRef τ sig)
      = RefStages.refOut (V (main_arg0 : DevRef τ sig)) (V (main_arg1 : DevRef τ sig)) := by
  simp only [RefStages.refOut, RefStages.scaledRows, RefStages.scaleCol, RefStages.normCol, RefStages.rows,
    RefStages.inRange, RefStages.posCol, RefStages.posWrapped, RefStages.pos]
  after_results_simp
  rfl

/-- No operation writes the activations. -/
theorem arg0_eq (V : Valuation τ sig (Elt F)) :
    StableHlo.after ops V (main_arg0 : DevRef τ sig) = V (main_arg0 : DevRef τ sig) := by
  simp only [after_cons, after_nil]
  rfl

/-- No operation writes the table. -/
theorem arg1_eq (V : Valuation τ sig (Elt F)) :
    StableHlo.after ops V (main_arg1 : DevRef τ sig) = V (main_arg1 : DevRef τ sig) := by
  simp only [after_cons, after_nil]
  rfl

/-- On every device, for any float values, from any memory with zero counters: every weakly fair execution of
    @main terminates with the result buffer at the staged term of the two arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = RefStages.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v13).trans (out_eq (launchContents m c)),
      (h c main_arg0).trans (arg0_eq (launchContents m c)),
      (h c main_arg1).trans (arg1_eq (launchContents m c))⟩)
    (StableHlo.run_seq scopedRefs_eq scopedSems_eq defs main (fun _ => ops) main_eq (fun _ => ops_sub) m ρ)

end Cert.ReferenceIdeal.RefRun

end
-- ==== Proof.LibGatherRows.lean ====
/-
  A general lemma about `stablehlo.gather` in the shape jnp's `table[idx]` (equally `jnp.take(table, idx, axis=0)`)
  takes for a rank-2 table: operand [N, C], start indices an [n, 1] column, result [n, C], the operand's row axis
  collapsed and start-indexed, its lane axis the one offset axis with the full slice, the index vector on axis 1.
  Result entry (p, q) is the table's entry (r, q), where r is start index p read as a signed integer and clamped
  into 0 … N − 1, as StableHLO clamps every start index.
-/
import Idealize.ShloMosaic.PureOps.ShapeOps
import Idealize.ShloMosaic.Lib.ValueIdx

namespace Cert.LibGatherRows

open Idealize.ShloMosaic Idealize.ShloMosaic.ValueIdx

variable {α : Type}

/-- The row gather's dimension numbers with literal lists, for an operand [N, C], start indices [n, 1] and result
    [n, C]; the side conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q), for the literal dimension numbers. -/
theorem gather_rows_lit {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    -- the row axis: collapsed, so no offset; not batching; its start is the clamped start index
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the lane axis: not start-indexed, not batching; the offset coordinate is the result's lane
    show (rowDims N C n wf).start (ix2 p q) idx 1 + (rowDims N C n wf).batchCoord (ix2 p q) 1
        + (rowDims N C n wf).offCoord (ix2 p q) 1 = q.val
    rw [GatherDims.batchCoord_eq_zero _ _ _ List.not_mem_nil]
    unfold GatherDims.start
    rw [dif_neg (show (1 : Fin 2) ∉ (rowDims N C n wf).startIndexMap from fun h => Nat.one_ne_zero (congrArg Fin.val (List.mem_singleton.mp h)))]
    simp only [Nat.add_zero, Nat.zero_add]
    rfl

/-- THE ROW GATHER READ AT (p, q), for any dimension numbers with these lists: the table at the clamped start index's
    row, the same lane. -/
theorem gather_rows {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  have hsb : d.startIndicesBatchingDims = [] :=
    List.length_eq_zero_iff.mp (by rw [← d.ob_length, hob]; rfl)
  obtain ⟨od, cd, ob, sb, sm, iv, ss, wf⟩ := d
  dsimp only at hoff hcoll hob hsim hivd hss hsb
  subst hoff hcoll hob hsim hivd hss hsb
  exact gather_rows_lit hN wf x idx p q

end Cert.LibGatherRows
-- ==== Proof.RefValue.lean ====
/-
  The reference program's value, entry by entry, over the extended reals.

  The start indices the program builds are the positions 0 … 8191 themselves: a position is below 2³¹, so it is not
  negative and is kept as it is; it lies between 0 and 8191, so its range bit is one. The gather of the table at the
  column of positions therefore returns the table (row `p` is taken at row `min p 8191 = p`), and the select on the range
  bits keeps it. From there the program squares the table, sums each row's squares over the 768 lanes (from the zero
  word, which is 0), takes the root, floors it at `ε`, divides `c` by it, caps the quotient at one, lays that column
  along the lanes, multiplies the table by it and adds the product to every batch of the activations: the common
  function `clipAdd`.
-/
import proofs.«167354_g4449586119098_cont_8to1_c_163_3_alg».proof.Proof.RefStages
import proofs.«167354_g4449586119098_cont_8to1_c_163_3_alg».proof.Proof.ClipSpec
import proofs.«167354_g4449586119098_cont_8to1_c_163_3_alg».proof.Proof.LibGatherRows
import Idealize.ShloMosaic.PureOps.Ideal.Laws
import Idealize.ShloMosaic.PureOps.Reduce
import Idealize.ShloMosaic.Lib.ValueIdx
import Idealize.ShloMosaic.Lib.StableHlo.Predicate
import Idealize.ShloMosaic.Lib.Pipeline.Value

noncomputable section

namespace Cert.ReferenceIdeal.RefValue

open Cert.ReferenceIdeal Idealize.ShloMosaic Idealize.ShloMosaic.ValueIdx Cert.ClipSpec
open Cert.ReferenceIdeal.Facts₀
open Idealize.ShloMosaic.StableHlo.Predicate (slt_iff_toNat sge_iff_toNat sle_iff_toNat toInt_ofNat_small)

/-! ## The start indices are the positions -/

/-- A position, as a 32-bit word, has the position as its value. -/
theorem toNat_posWord (p : Fin 8192) : (BitVec.ofNat 32 p.val).toNat = p.val := by
  rw [BitVec.toNat_ofNat]; exact Nat.mod_eq_of_lt (by have := p.isLt; omega)

/-- The iota at `p` is the word `p`. -/
theorem pos_apply (p : Fin 8192) : RefStages.pos (ix1 p) = BitVec.ofNat 32 p.val := rfl

/-- No position is negative, so none is counted from the table's end. -/
theorem posWrapped_apply (p : Fin 8192) : RefStages.posWrapped (ix1 p) = BitVec.ofNat 32 p.val := by
  have hneg : IntOp.cmpi .slt (BitVec.ofNat 32 p.val) 0#32 = 0#1 := by
    refine eq_zero_of_ne_one fun h => ?_
    have := (slt_iff_toNat (by rw [toNat_posWord]; have := p.isLt; omega) (by decide)).1 h
    exact Nat.not_lt_zero _ this
  show Scalar.select (IntOp.cmpi .slt (BitVec.ofNat 32 p.val) 0#32) _ (BitVec.ofNat 32 p.val) = _
  rw [hneg, select_zero]

/-- The column of start indices holds, at `(p, 0)`, the word `p`. -/
theorem posCol_apply (p : Fin 8192) (z : Fin 1) : RefStages.posCol (ix2 p z) = BitVec.ofNat 32 p.val := by
  unfold RefStages.posCol
  rw [broadcastInDim_apply _ _ _ _ (ix1 p) (fun a => match a with | ⟨0, _⟩ => rfl)]
  exact posWrapped_apply p

/-! ## Every position lies inside the table -/

/-- A fold of `and` from one over entries that are all one is one. -/
theorem fold_andi_ones {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf a]; rfl

/-- The range bit of position `p` is one: `0 ≤ p ≤ 8191`, and the reduction runs over the one entry of its row. -/
theorem inRange_apply (p : Fin 8192) : RefStages.inRange (ix1 p) = 1#1 := by
  have hred : S8192x1.Reduces [1] S8192 := by decide
  unfold RefStages.inRange
  rw [Host.reduce_eq_fold_single IntOp.andi _ _ _ hred]
  refine fold_andi_ones _ _ fun k => ?_
  show IntOp.andi (IntOp.cmpi .sge (RefStages.posCol (hred.lift (ix1 p) k)) 0#32)
    (IntOp.cmpi .sle (RefStages.posCol (hred.lift (ix1 p) k)) 8191#32) = 1#1
  obtain ⟨r, z, hrz⟩ : ∃ r z, hred.lift (ix1 p) k = ix2 r z := ⟨_, _, eq_ix2 _⟩
  rw [hrz, posCol_apply]
  have hr : (BitVec.ofNat 32 r.val).toNat < 2 ^ 31 := by rw [toNat_posWord]; have := r.isLt; omega
  rw [(sge_iff_toNat hr (by decide)).2 (Nat.zero_le _),
    (sle_iff_toNat hr (by decide)).2 (by rw [toNat_posWord]; have := r.isLt; show r.val ≤ 8191; omega)]
  rfl

/-! ## The gathered rows are the table -/

/-- The gather at the column of positions takes row `p` at row `p`, and the range bit keeps it. -/
theorem rows_apply (w : FVec Ideal S8192x768 .f32) (p : Fin 8192) (q : Fin 768) :
    RefStages.rows (F := Ideal) w (ix2 p q) = w (ix2 p q) := by
  have hmask : broadcastInDim S8192x768 ![0] bcast_S8192_S8192x768_0 RefStages.inRange (ix2 p q) = 1#1 := by
    rw [broadcastInDim_apply _ _ _ _ (ix1 p) (fun a => match a with | ⟨0, _⟩ => rfl)]
    exact inRange_apply p
  show Scalar.select (broadcastInDim S8192x768 ![0] bcast_S8192_S8192x768_0 RefStages.inRange (ix2 p q))
    (Host.gather gather_S8192x768_S8192x1_S8192x768_1_0_n_n_0_1_1768 w RefStages.posCol (ix2 p q)) _ = _
  rw [hmask, select_one,
    Cert.LibGatherRows.gather_rows _ rfl rfl rfl rfl rfl rfl w RefStages.posCol p q (by decide)]
  refine congrArg w (congrArg (fun r => ix2 r q) (Fin.ext ?_))
  show min (RefStages.posCol (ix2 p 0)).toInt.toNat (8192 - 1) = p.val
  rw [posCol_apply, toInt_ofNat_small _ (by have := p.isLt; omega), Int.toNat_natCast]
  have := p.isLt
  omega

/-! ## Lengths, factors and the result -/

/-- The length column at row `p`: the root of the sum, over the 768 lanes, of the squares of the table's row `p`. -/
theorem normCol_apply (w : FVec Ideal S8192x768 .f32) (p : Fin 8192) (z : Fin 1) :
    RefStages.normCol (F := Ideal) w (ix2 p z) = Ideal.sqrt (rowSq w p) := by
  have hred : S8192x768.Reduces [1] S8192 := by decide
  unfold RefStages.normCol
  show Ideal.sqrt (broadcastInDim (s := S8192) S8192x1 ![0] bcast_S8192_S8192x1_0 _ (ix2 p z)) = _
  rw [broadcastInDim_apply _ _ _ _ (ix1 p) (fun a => match a with | ⟨0, _⟩ => rfl)]
  show Ideal.sqrt (Ideal.hostReduceAdd reducesTo_S8192x768_S8192_d1
    (mulf (RefStages.rows (F := Ideal) w) (RefStages.rows (F := Ideal) w)) (Ideal.ofBits .f32 0x00000000#32) (ix1 p)) = _
  rw [Ideal.hostReduceAdd_single _ hred, Ideal.ofBits_zero_f32, zero_add]
  refine congrArg Ideal.sqrt ?_
  show ∑ k : Fin 768, mulf (RefStages.rows (F := Ideal) w) (RefStages.rows (F := Ideal) w) (hred.lift (ix1 p) k)
    = ∑ k : Fin 768, w (ix2 p k) * w (ix2 p k)
  refine Finset.sum_congr rfl fun k _ => ?_
  have hk : hred.lift (ix1 p) k = ix2 p k := by
    funext a; refine Fin.ext ?_
    match a with
    | ⟨0, _⟩ => rfl
    | ⟨1, _⟩ => rfl
  rw [hk, mulf_apply, rows_apply]

/-- The factor column at row `p` is the common function's factor of row `p`. -/
theorem scaleCol_apply (w : FVec Ideal S8192x768 .f32) (p : Fin 8192) (z : Fin 1) :
    RefStages.scaleCol (F := Ideal) w (ix2 p z) = clipScale w p := by
  show min oneW (Ideal.div cBound (max (RefStages.normCol (F := Ideal) w (ix2 p z)) epsFloor)) = _
  rw [normCol_apply]
  rfl

/-- The rescaled rows at `(p, q)`: the table's entry times its row's factor. -/
theorem scaledRows_apply (w : FVec Ideal S8192x768 .f32) (p : Fin 8192) (q : Fin 768) :
    RefStages.scaledRows (F := Ideal) w (ix2 p q) = w (ix2 p q) * clipScale w p := by
  unfold RefStages.scaledRows
  rw [mulf_apply, rows_apply,
    broadcastInDim_apply _ _ _ _ (ix2 p (0 : Fin 1)) (fun a => match a with | ⟨0, _⟩ => rfl | ⟨1, _⟩ => rfl),
    scaleCol_apply]

/-- THE REFERENCE'S VALUE is the common function. -/
theorem refOut_eq (x : FVec Ideal S4x8192x768 .f32) (w : FVec Ideal S8192x768 .f32) :
    RefStages.refOut (F := Ideal) x w = Cert.ClipSpec.clipAdd x w := by
  funext i
  obtain ⟨b, l, j, rfl⟩ : ∃ b l j, i = ix3 b l j := ⟨i 0, i 1, i 2, eq_ix3 i⟩
  unfold RefStages.refOut
  rw [addf_apply,
    broadcastInDim_apply _ _ _ _ (ix3 (0 : Fin 1) l j)
      (fun a => match a with | ⟨0, _⟩ => rfl | ⟨1, _⟩ => rfl | ⟨2, _⟩ => rfl),
    broadcastInDim_apply _ _ _ _ (ix2 l j) (fun a => match a with | ⟨0, _⟩ => rfl | ⟨1, _⟩ => rfl),
    scaledRows_apply]
  rfl

end Cert.ReferenceIdeal.RefValue

end
-- ==== Proof.KerPayload.lean ====
/-
  The kernel body's one stored value, read at an entry of the block. With `wb` the table's block (512 rows of 768)
  and `xb` the activations' block, the body squares `wb`, sums each row's squares over the 768 lanes, takes the root,
  floors it at ε, divides the bound `c` by it, caps the quotient at one, lays that column along the lanes, multiplies
  `wb` by it and adds `xb`: at row `p`, lane `q`,
      xb (p, q) + wb (p, q) · min 1 (c / max (√(Σ_k wb (p, k)²)) ε).
-/
import proofs.«167354_g4449586119098_cont_8to1_c_163_3_alg».proof.Proof.Gen.KernelIdeal.Skeleton
import proofs.«167354_g4449586119098_cont_8to1_c_163_3_alg».proof.Proof.ClipSpec
import Idealize.ShloMosaic.PureOps.Ideal.Laws
import Idealize.ShloMosaic.Lib.ValueIdx
import Idealize.ShloMosaic.Lib.Pipeline.Value

noncomputable section

namespace Cert.KernelIdeal.KerPayload

open Cert.KernelIdeal Cert.KernelIdeal.Gen Idealize.ShloMosaic Idealize.ShloMosaic.ValueIdx Cert.ClipSpec

/-- A vector of 512 entries stood up as a column reads, at row `p`, the vector's entry `p`. -/
theorem column_apply (v : S512.Idx → EReal) (h : S512.ShapeCasts S512x1) (p : Fin 512) :
    shapeCast S512x1 v h (ix2 p (0 : Fin 1)) = v (ix1 p) :=
  shapeCast_apply v h _ _ (by rw [Shape.rowMajor_val_one, Shape.rowMajor_val_two]; simp)

/-- A column laid along the 768 lanes reads, at row `p` and any lane, the column's row `p`. -/
theorem lanes_apply (v : S512x1.Idx → EReal) (h : S512x1.Broadcasts S512x768) (p : Fin 512) (q : Fin 768) :
    broadcastTo S512x768 v h (ix2 p q) = v (ix2 p (0 : Fin 1)) :=
  broadcastTo_apply v h _ _ (fun a => by
    match a with
    | ⟨0, _⟩ => rfl
    | ⟨1, _⟩ => rfl)

/-- The sum of a row's squares over the lanes, read at row `p`. -/
theorem rowSum_apply (wb : FVec Ideal S512x768 .f32) (h : S512x768.Reduces [1] S512) (hφ) (hacc) (p : Fin 512) :
    multiReduction .add [1] S512 (mulf wb wb) 0x00000000#32 h hφ hacc (ix1 p)
      = ∑ k : Fin 768, wb (ix2 p k) * wb (ix2 p k) := by
  rw [Ideal.multiReduction_add_single]
  refine Finset.sum_congr rfl fun k _ => ?_
  have e : h.lift (ix1 p) k = ix2 p k := by
    funext a
    match a with
    | ⟨0, _⟩ => rfl
    | ⟨1, _⟩ => rfl
  rw [e]; rfl

/-- The stored value at row `p`, lane `q` of the block. -/
theorem pay_apply (wb xb : FVec Ideal S512x768 .f32) (p : Fin 512) (q : Fin 768) :
    k0_pay1 (F := Ideal) wb xb (ix2 p q)
      = xb (ix2 p q) + wb (ix2 p q)
          * min oneW (Ideal.div cBound (max (Ideal.sqrt (∑ k : Fin 768, wb (ix2 p k) * wb (ix2 p k))) epsFloor)) := by
  unfold k0_pay1
  show shapeCast S512x768 xb _ (ix2 p q) + wb (ix2 p q) * broadcastTo S512x768 _ _ (ix2 p q) = _
  rw [shapeCast_self, lanes_apply]
  show xb (ix2 p q) + wb (ix2 p q) * min oneW (Ideal.div cBound (max (Ideal.sqrt (shapeCast S512x1 _ _ (ix2 p (0 : Fin 1)))) epsFloor)) = _
  rw [column_apply]
  exact congrArg (fun s => xb (ix2 p q) + wb (ix2 p q) * min oneW (Ideal.div cBound (max (Ideal.sqrt s) epsFloor)))
    (rowSum_apply wb _ _ _ p)

end Cert.KernelIdeal.KerPayload

end
-- ==== Proof.KerBlocks.lean ====
/-
  From the blocks to the array. The launch runs over 16 × 4 grid points; point (l, b) stores a block of 512 rows of 768
  lanes at block row b·16 + l of the flattened result [4·8192, 768]. The activations' block sits at the same block row of
  the flattened activations, the table's block at block row l = (b·16 + l) mod 16 of the table. So row p of the block at
  block row R is row r = R·512 + p of the flat arrays, and the table's row met there is (R mod 16)·512 + p = r mod 8192.
  With the stored value of one block known entry by entry, each block a point writes back is therefore the restriction of ONE
  function of the whole arrays, the flat result
      x2 (r, q) + w (r mod 8192, q) · min 1 (c / max (√(Σ_k w (r mod 8192, k)²)) ε),
  and since the 64 block rows are all taken, the result array ends holding that function.
-/
import proofs.«167354_g4449586119098_cont_8to1_c_163_3_alg».proof.Proof.Gen.KernelIdeal.Frame
import proofs.«167354_g4449586119098_cont_8to1_c_163_3_alg».proof.Proof.ClipSpec
import proofs.«167354_g4449586119098_cont_8to1_c_163_3_alg».proof.Proof.KerPayload
import Idealize.ShloMosaic.Lib.Pipeline.Value
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx Cert.ClipSpec

variable (m : (ℓ : Loc nD τ sig) → Buf (Elt Ideal) ℓ) (ρ : Dev nD → PrngReg)

/-- The store's offsets, both zero. -/
theorem zero_offsets : (![0, 0] : Fin 2 → Nat) = fun _ => 0 := funext fun a => by fin_cases a <;> rfl

/-- The three index maps over the 64 grid points: the activations' block row is the output's, the table's block row is
    the output's modulo 16, every block column is 0, and the output's block row is at most 63. -/
theorem block_rows : ∀ t : Fin cfg0.N,
    win0_0.index t (0 : Fin 2) = win0_2.index t (0 : Fin 2)
    ∧ win0_1.index t (0 : Fin 2) = win0_2.index t (0 : Fin 2) % 16
    ∧ win0_0.index t (1 : Fin 2) = 0 ∧ win0_1.index t (1 : Fin 2) = 0 ∧ win0_2.index t (1 : Fin 2) = 0
    ∧ win0_2.index t (0 : Fin 2) ≤ 63 :=
  (by decide +kernel : ∀ t : Fin grid0.N, _)

/-- Every block row 0 … 63 of the output is some grid point's. -/
theorem block_rows_onto : ∀ r : Fin 64, ∃ t : Fin cfg0.N, win0_2.index t = ![r.val, 0] :=
  (by decide +kernel : ∀ r : Fin 64, ∃ t : Fin grid0.N, win0_2.index t = ![r.val, 0])

/-- The stored value at an entry, when the activations' block entry is the flat array's entry in row `r` and the
    table's block row is the table's row `l = r mod 8192`: the flat result at row `r`. -/
theorem pay_at (wb xb : FVec Ideal S512x768 .f32) (x2 : (⟨2, ![32768, 768]⟩ : Shape).Idx → EReal) (w : SW.Idx → EReal)
    (p : Fin 512) (q : Fin 768) (r : Fin 32768) (l : Fin 8192) (hl : r.val % 8192 = l.val)
    (hx : xb (ix2 p q) = x2 (ix2 r q))
    (hw : ∀ k : Fin 768, wb (ix2 p k) = w (ix2 l k)) :
    k0_pay1 (F := Ideal) wb xb (ix2 p q) = clipAddFlat x2 w (ix2 r q) := by
  rw [KerPayload.pay_apply, hx]
  simp only [hw]
  have hl' : (⟨r.val % 8192, Nat.mod_lt _ (by norm_num)⟩ : Fin 8192) = l := Fin.ext hl
  unfold clipAddFlat clipScale rowSq
  show _ = x2 (ix2 r q) + w (ix2 (⟨r.val % 8192, Nat.mod_lt _ (by norm_num)⟩ : Fin 8192) q) * _
  rw [hl']

/-- The activations' block at point `t`, read at an entry, is the flat array where the output's block says. -/
theorem act_block_apply (c : Dev nD) (t : Fin cfg0.N) (y : S512x768.Idx) (i : S32768x768.Idx)
    (h0 : (i 0).val = win0_2.index t (0 : Fin 2) * 512 + (y 0).val) (h1 : (i 1).val = (y 1).val) :
    (iblk m c 0 t : Vec Ideal S512x768 .f32) y = (V m c main_v0 : S32768x768.Idx → EReal) i := by
  obtain ⟨e0, -, e2, -, -, -⟩ := block_rows t
  unfold iblk
  rw [View.read_apply]
  show V m c main_v0 (((cfg0.win 0).blk t).view.emb y) = V m c main_v0 i
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 768 + 1 * (y 1).val = (i 1).val; rw [e2, h1]; omega

/-- The table's block at point `t`, read at an entry, is the table at the output's block row modulo 16. -/
theorem tab_block_apply (c : Dev nD) (t : Fin cfg0.N) (y : S512x768.Idx) (i : S8192x768.Idx)
    (h0 : (i 0).val = win0_2.index t (0 : Fin 2) % 16 * 512 + (y 0).val) (h1 : (i 1).val = (y 1).val) :
    (iblk m c 1 t : Vec Ideal S512x768 .f32) y = (V m c main_arg1 : S8192x768.Idx → EReal) i := by
  obtain ⟨-, e1, -, e3, -, -⟩ := block_rows t
  unfold iblk
  rw [View.read_apply]
  show V m c main_arg1 (((cfg0.win 1).blk t).view.emb y) = V m c main_arg1 i
  congr 1
  funext a
  apply Fin.ext
  match a with
  | ⟨0, _⟩ => show win0_1.index t (0 : Fin 2) * 512 + 1 * (y 0).val = (i 0).val; rw [e1, h0]; omega
  | ⟨1, _⟩ => show win0_1.index t (1 : Fin 2) * 768 + 1 * (y 1).val = (i 1).val; rw [e3, h1]; omega

/-- What point `t` stores, at an entry `y` of its block: the flat result at the array entry `i` the output's block
    puts there. -/
theorem stored_apply (c : Dev nD) (t : Fin cfg0.N) (y : S512x768.Idx) (i : S32768x768.Idx)
    (h0 : (i 0).val = win0_2.index t (0 : Fin 2) * 512 + (y 0).val) (h1 : (i 1).val = (y 1).val) :
    k0_pay1 (F := Ideal) (iblk m c 1 t) (iblk m c 0 t) y
      = clipAddFlat (V m c main_v0) (V m c main_arg1) i := by
  obtain ⟨-, -, -, -, -, e5⟩ := block_rows t
  obtain ⟨p, q, rfl⟩ : ∃ (p : Fin 512) (q : Fin 768), y = ix2 p q := ⟨y 0, y 1, eq_ix2 y⟩
  obtain ⟨r, q', rfl⟩ : ∃ (r : Fin 32768) (q' : Fin 768), i = ix2 r q' := ⟨i 0, i 1, eq_ix2 i⟩
  have hr : r.val = win0_2.index t (0 : Fin 2) * 512 + p.val := h0
  obtain rfl : q = q' := (Fin.ext h1).symm
  have hp : p.val < 512 := p.isLt
  have hl : win0_2.index t (0 : Fin 2) % 16 * 512 + p.val < 8192 := by omega
  have hmod : r.val % 8192 = win0_2.index t (0 : Fin 2) % 16 * 512 + p.val := by omega
  refine pay_at _ _ _ _ p q r ⟨_, hl⟩ hmod ?_ ?_
  · exact act_block_apply m c t (ix2 p q) (ix2 r q) hr rfl
  · intro k
    exact tab_block_apply m c t (ix2 p k) (ix2 ⟨_, hl⟩ k) rfl rfl

/-- WHAT POINT `t` WRITES BACK is its block of the flat result. -/
theorem flushed_eq (c : Dev nD) (t : Fin cfg0.N) :
    (dats m 0 c).flushed 2 t
      = ((cfg0.win 2).blk t).view.read (Elt Ideal) (clipAddFlat (V m c main_v0) (V m c main_arg1)) := by
  show (cfg0.win 2).cut (grid0.coords t) ((dats m 0 c).after 2 t) = _
  rw [after0_2]
  unfold out0_2
  rw [View.canon_unit_zero zero_offsets]
  simp only [View.ld_unit_zero (S := S512x768) zero_offsets]
  obtain ⟨-, -, -, -, e4, -⟩ := block_rows t
  funext j
  show k0_pay1 (F := Ideal) (iblk m c 1 t) (iblk m c 0 t) j
    = clipAddFlat (V m c main_v0) (V m c main_arg1) (((cfg0.win 2).blk t).view.emb j)
  refine stored_apply m c t j _ ?_ ?_
  · show win0_2.index t (0 : Fin 2) * 512 + 1 * (j 0).val = _; omega
  · show win0_2.index t (1 : Fin 2) * 768 + 1 * (j 1).val = _; rw [e4]; omega

/-- An entry of the flat array is in point `t`'s output block iff each coordinate is in the block's range on its axis. -/
theorem mem_blk (t : Fin cfg0.N) (i : S32768x768.Idx) :
    i ∈ ((cfg0.win 2).blk t).view.set ↔ ∀ a : Fin 2, win0_2.index t a * S512x768.size a ≤ (i a).val ∧ (i a).val < win0_2.index t a * S512x768.size a + S512x768.size a := by
  show i ∈ ((View.whole main_v1).slice (win0_2.rect t)).set ↔ _
  rw [View.set_slice_whole, Rect.mem_set_unit]
  exact Iff.rfl

/-- The 64 output blocks cover the flat array: row `r` lies in the block of row `r / 512`. -/
theorem cover (i : S32768x768.Idx) :
    ∃ t : Fin cfg0.N, (cfg0.win 2).flush t = true ∧ i ∈ ((cfg0.win 2).blk t).view.set := by
  have hi0 : (i 0).val < 32768 := (i 0).isLt
  have hi1 : (i 1).val < 768 := (i 1).isLt
  obtain ⟨t, ht⟩ := block_rows_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 768 ≤ (i 1).val ∧ (i 1).val < win0_2.index t (1 : Fin 2) * 768 + 768; omega

/-- THE OUTPUT ARRAY after the region: the flat result of the arrays the region found. -/
theorem final (c : Dev nD) :
    (dats m 0 c).arrAt 2 cfg0.N = clipAddFlat (V m c main_v0) (V m c main_arg1) :=
  (dats m 0 c).arrAt_eq_of_cover 2 _ (fun t _ => flushed_eq m c t) cover

end Cert.KernelIdeal.KerValue

end
-- ==== Proof.FlatRows.lean ====
/-
  Flattening the activations. The launch sees the [4, 8192, 768] activations as 32768 rows of 768: row
  `b · 8192 + l` is batch `b`, position `l` (row-major order), and the result is folded back the same way. Read through
  the two foldings, the row-wise function `clipAddFlat` (which takes the table's row `r % 8192` for flat row `r`) is
  `clipAdd`: `(b · 8192 + l) % 8192 = l`.
-/
import proofs.«167354_g4449586119098_cont_8to1_c_163_3_alg».proof.Proof.ClipSpec
import Idealize.ShloMosaic.Lib.Pipeline.Value

noncomputable section

namespace Cert.ClipSpec

open Idealize.ShloMosaic Idealize.ShloMosaic.ValueIdx

/-- The flattened activations' shape, [4 · 8192, 768]. -/
abbrev SFlat : Shape := ⟨2, ![32768, 768]⟩

/-- Folding the flat rows back: entry (b, l, j) is the flat entry (b · 8192 + l, j). -/
theorem unflatten_apply {α : Type} (y : SFlat.Idx → α) (h : SFlat.ShapeCasts SX) (b : Fin 4) (l : Fin 8192) (j : Fin 768) :
    shapeCast SX y h (ix3 b l j) = y (ix2 ⟨b.val * 8192 + l.val, by omega⟩ j) :=
  shapeCast_apply y h _ _ (by
    rw [Shape.rowMajor_val_two, Shape.rowMajor_val_three]
    show (b.val * 8192 + l.val) * 768 + j.val = (b.val * 8192 + l.val) * 768 + j.val
    rfl)

/-- Flattening: flat entry (b · 8192 + l, j) is entry (b, l, j). -/
theorem flatten_apply {α : Type} (x : SX.Idx → α) (h : SX.ShapeCasts SFlat) (b : Fin 4) (l : Fin 8192) (j : Fin 768) :
    shapeCast SFlat x h (ix2 ⟨b.val * 8192 + l.val, by omega⟩ j) = x (ix3 b l j) :=
  shapeCast_apply x h _ _ (by
    rw [Shape.rowMajor_val_two, Shape.rowMajor_val_three]
    show (b.val * 8192 + l.val) * 768 + j.val = (b.val * 8192 + l.val) * 768 + j.val
    rfl)

/-- The row-wise function on the flattened activations, folded back, is `clipAdd`. -/
theorem clipAdd_of_flat (x : SX.Idx → EReal) (w : SW.Idx → EReal) (h1 : SX.ShapeCasts SFlat) (h2 : SFlat.ShapeCasts SX) :
    shapeCast SX (clipAddFlat (shapeCast SFlat x h1) w) h2 = clipAdd x w := by
  funext i
  obtain ⟨b, l, j, rfl⟩ : ∃ (b : Fin 4) (l : Fin 8192) (j : Fin 768), i = ix3 b l j := ⟨i 0, i 1, i 2, eq_ix3 i⟩
  rw [unflatten_apply]
  have hl : (b.val * 8192 + l.val) % 8192 = l.val := by omega
  have hrow : (⟨(b.val * 8192 + l.val) % 8192, Nat.mod_lt _ (by norm_num)⟩ : Fin 8192) = l := Fin.ext hl
  show shapeCast SFlat x h1 (ix2 ⟨b.val * 8192 + l.val, _⟩ j)
      + w (ix2 ⟨(b.val * 8192 + l.val) % 8192, _⟩ j) * clipScale w ⟨(b.val * 8192 + l.val) % 8192, _⟩
    = x (ix3 b l j) + w (ix2 l j) * clipScale w l
  rw [flatten_apply, hrow]

end Cert.ClipSpec

end
-- ==== Proof.KerRun.lean ====
/-
  The whole program around the launch. Before the launch the host flattens the activations [4, 8192, 768] to
  [4·8192, 768] rows; the launch leaves the flat result of those rows and the table in its output array; after it the
  host cuts the rows back into four batches. Both reshapes keep the row-major order, so entry (b, l, j) of the result
  is flat row b·8192 + l, where the flat result reads the table's row (b·8192 + l) mod 8192 = l: the program's result
  buffer ends at
      x (b, l, j) + w (l, j) · min 1 (c / max (√(Σ_k w (l, k)²)) ε)
  of the two argument arrays as launched, and neither argument is written.
-/
import proofs.«167354_g4449586119098_cont_8to1_c_163_3_alg».proof.Proof.KerBlocks
import proofs.«167354_g4449586119098_cont_8to1_c_163_3_alg».proof.Proof.FlatRows
import Idealize.ShloMosaic.Lib.Pipeline.FrameSuffix
import Idealize.ShloMosaic.Lib.StableHlo.Run
import Idealize.ShloMosaic.Lib.Tactic

noncomputable section

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx Cert.ClipSpec

variable (m : (ℓ : Loc nD τ sig) → Buf (Elt Ideal) ℓ) (ρ : Dev nD → PrngReg)

/-- The flat activations the region finds: the first host line's reshape of the activations as launched. -/
theorem entry_flat (c : Dev nD) :
    (V m c main_v0 : S32768x768.Idx → EReal)
      = shapeCast S32768x768 (m ((c.tc : Thread nD τ).loc main_arg0)) shapeCasts_S4x8192x768_S32768x768 := by
  show StableHlo.after hostOps0 (fun b => m (c, b)) (Proc.devRef .tc main_v0) = _
  after_results
  rfl

/-- What the last host line leaves in the result: the flat result the region left, cut back into batches. -/
theorem tail_result (c : Dev nD) :
    (Pipeline.afterTail₀ cfgs (dats m) 0 (V0 m) [hostOps1] c main_v2 : S4x8192x768.Idx → EReal)
      = shapeCast S4x8192x768 (clipAddFlat (V m c main_v0) (V m c main_arg1)) shapeCasts_S32768x768_S4x8192x768 := by
  have e := (Pipeline.withArrays_arr spec0 launch0.win.arr_inj c (V0 m c) (fun w => (dats m 0 c).arrAt w cfg0.N) 2).trans (final m c)
  unfold Pipeline.afterTail₀
  show StableHlo.after hostOps1 _ (Proc.devRef .tc main_v2) = _
  after_results
  show (fun i => shapeCast S4x8192x768 (Pipeline.withArrays spec0 c (V0 m c) (fun w => (dats m 0 c).arrAt w cfg0.N) (Proc.devRef .tc (Pipeline.arrRef spec0 2))) shapeCasts_S32768x768_S4x8192x768 i) = _
  rw [e]

/-- The result after the whole program: flatten, the region's flat result, cut back — the result of the arrays as launched. -/
theorem result_eq (c : Dev nD) :
    Pipeline.afterTail₀ cfgs (dats m) 0 (V0 m) [hostOps1] c main_v2
      = clipAdd (m ((c.tc : Thread nD τ).loc main_arg0)) (m ((c.tc : Thread nD τ).loc main_arg1)) := by
  refine (tail_result m c).trans ?_
  rw [entry_flat, V_main_arg1]
  exact clipAdd_of_flat _ _ _ _

/-- THE KERNEL'S RUN, read: every weakly fair execution ends with the result buffer at the result of the two argument
    arrays as launched, and the arguments unchanged. -/
theorem run : θ_run (defs (F := Ideal)) (onTc (τ := τ) (main (F := Ideal))) ⟨m, fun _ => 0, ρ⟩ fun r => ∀ c : Dev nD,
      r.2.mem ((c.tc : Thread nD τ).loc main_v2) = Cert.ClipSpec.clipAdd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

/-- info: 'Cert.KernelIdeal.KerValue.run' depends on axioms: [propext, Classical.choice, Quot.sound] -/
#guard_msgs in #print axioms run

end Cert.KernelIdeal.KerValue

end
-- ==== Proof.lean ====
/-
  Adding a norm-clipped positional table to the activations: the kernel against the jnp reference, over the extended reals.

  Both programs take activations `x` of shape [4, 8192, 768] and a table `W` of shape [8192, 768]. For each position `l`
  the table's row is rescaled by `min 1 (c / max ‖W_l‖ ε)` — `‖W_l‖` the root of the sum of the row's 768 squares, `c`
  the f32 word nearest √768 and `ε` the f32 word nearest 1e-12, the same three words in both programs — and added to row
  `l` of every batch: `Cert.ClipSpec.clipAdd` (Proof/ClipSpec.lean).

  The reference takes the table's rows at the positions 0 … 8191 through a gather guarded by a range mask; every position
  lies in the table, so the mask is all ones and the gathered rows are the table itself (Proof/LibGatherRows.lean,
  Proof/RefValue.lean). Its run is its 43 host operations in order (Proof/RefRun.lean over the stages of
  Proof/RefStages.lean). The kernel flattens the activations to 32768 rows, and at grid point (l, b) writes rows
  (b·16 + l)·512 … of the result from the same rows of the activations and rows l·512 … of the table; the 64 blocks tile
  the flat result, flat row r uses table row r % 8192 (Proof/KerPayload.lean, Proof/KerBlocks.lean), and folding the rows
  back gives `clipAdd` (Proof/FlatRows.lean, Proof/KerRun.lean). No algebraic law is needed beyond reading both
  row sums as the same sum, so the inputs' finiteness is not used. The kernel's idealization rewrote no operation, so
  `preserves` is trivial; the kernels' frames are the generated ones.
-/
import proofs.«167354_g4449586119098_cont_8to1_c_163_3_alg».proof.Defs
import proofs.«167354_g4449586119098_cont_8to1_c_163_3_alg».proof.Proof.Gen.Kernel
import proofs.«167354_g4449586119098_cont_8to1_c_163_3_alg».proof.Proof.Gen.Kernel.Skeleton
import proofs.«167354_g4449586119098_cont_8to1_c_163_3_alg».proof.Proof.Gen.Kernel.Launch
import proofs.«167354_g4449586119098_cont_8to1_c_163_3_alg».proof.Proof.Gen.Kernel.Points
import proofs.«167354_g4449586119098_cont_8to1_c_163_3_alg».proof.Proof.Gen.Kernel.Frame
import proofs.«167354_g4449586119098_cont_8to1_c_163_3_alg».proof.Proof.Gen.KernelIdeal
import proofs.«167354_g4449586119098_cont_8to1_c_163_3_alg».proof.Proof.Gen.KernelIdeal.Skeleton
import proofs.«167354_g4449586119098_cont_8to1_c_163_3_alg».proof.Proof.Gen.KernelIdeal.Launch
import proofs.«167354_g4449586119098_cont_8to1_c_163_3_alg».proof.Proof.Gen.KernelIdeal.Points
import proofs.«167354_g4449586119098_cont_8to1_c_163_3_alg».proof.Proof.Gen.KernelIdeal.Frame
import proofs.«167354_g4449586119098_cont_8to1_c_163_3_alg».proof.Proof.Gen.ReferenceIdeal
import proofs.«167354_g4449586119098_cont_8to1_c_163_3_alg».proof.Proof.Gen.Pre_finite_inputs
import proofs.«167354_g4449586119098_cont_8to1_c_163_3_alg».proof.Proof.ClipSpec
import proofs.«167354_g4449586119098_cont_8to1_c_163_3_alg».proof.Proof.RefRun
import proofs.«167354_g4449586119098_cont_8to1_c_163_3_alg».proof.Proof.RefValue
import proofs.«167354_g4449586119098_cont_8to1_c_163_3_alg».proof.Proof.KerRun
import Idealize.ShloMosaic.Adequacy
import Idealize.ShloMosaic.Init

noncomputable section

namespace Cert.Proof

open Idealize.ShloMosaic Idealize.SL.Sem

/-- The kernel as printed terminates, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the activations and the table, both programs end with `clipAdd` of them. -/
theorem algebraic : Cert.algebraic_KernelIdeal_ReferenceIdeal := by
  intro m ρ m' ρ' _ hagree
  refine ⟨fun c => Cert.ClipSpec.clipAdd (m ((c.tc : Thread _ _).loc Cert.KernelIdeal.main_arg0)) (m ((c.tc : Thread _ _).loc Cert.KernelIdeal.main_arg1)),
    Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
